-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩
abbrev S2000x128 : Shape := ⟨2, ![2000, 128]⟩
abbrev S2000x256 : Shape := ⟨2, ![2000, 256]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x256, .f32⟩
  | .local _ .vmem, ⟨9, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x256, .f32⟩
  | .hbm, ⟨33, _⟩ => ⟨S_, .f32⟩
  | .hbm, ⟨34, _⟩ => ⟨S100000x256, .f32⟩
  | .hbm, ⟨35, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S_S100000x256 : S_.BroadcastsInDim S100000x256 (![] : Fin 0 → Fin S100000x256.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LayerSpec.lean ====
/-
  The mathematics of the layer, stated apart from both programs.

  A node's output row has 256 entries. Entries 0..127 are the node's own features through one affine map and
  a rectifier, entries 128..255 the aggregated neighbour features through a second affine map and the same
  rectifier:

      out[r, c]       = max (Σ_k x[r, k]   · W_local[k, c] + b_local[c], 0)          (c < 128)
      out[r, 128 + c] = max (Σ_k agg[r, k] · W_neigh[k, c] + b_neigh[c], 0)          (c < 128)

  over the extended reals. The aggregate `agg` is an argument here: how it is made from the edge list is the
  same chain of host operations in both programs and is never opened.

  The number of rows is a parameter, so that one definition reads both a block of 2000 rows and the whole
  array of 100000 rows; a block of the whole-array function is the block function of the blocks
  (`sageRows_block`), because a row's entries depend on that row of `x` and of `agg` only.
-/
import Idealize.ShloMosaic.PureOps.Ideal
import Idealize.ShloMosaic.PureOps.Ideal.Laws
import Idealize.ShloMosaic.Lib.ValueIdx

noncomputable section

namespace Cert.SageLayer

open Idealize.ShloMosaic Idealize.ShloMosaic.ValueIdx

/-- One affine map followed by the rectifier, at row `r` and column `c`:
    `max (Σ_k a[r, k] · W[k, c] + b[c], 0)`, the zero kept as the f32 zero word both programs print. -/
def denseRelu {N : Nat} (a : (⟨2, ![N, 128]⟩ : Shape).Idx → EReal) (W : (⟨2, ![128, 128]⟩ : Shape).Idx → EReal)
    (b : (⟨1, ![128]⟩ : Shape).Idx → EReal) (r : Fin N) (c : Fin 128) : EReal :=
  max ((∑ k : Fin 128, a (ix2 r k) * W (ix2 k c)) + b (ix1 c)) (Ideal.ofBits .f32 0x00000000#32)

/-- The layer on `N` rows: the local half in columns 0..127, the neighbour half in columns 128..255. -/
def sageRows {N : Nat} (x agg : (⟨2, ![N, 128]⟩ : Shape).Idx → EReal)
    (Wl : (⟨2, ![128, 128]⟩ : Shape).Idx → EReal) (bl : (⟨1, ![128]⟩ : Shape).Idx → EReal)
    (Wn : (⟨2, ![128, 128]⟩ : Shape).Idx → EReal) (bn : (⟨1, ![128]⟩ : Shape).Idx → EReal) :
    (⟨2, ![N, 256]⟩ : Shape).Idx → EReal := fun i =>
  if h : (i 1).val < 128 then denseRelu x Wl bl ⟨(i 0).val, idx2_lt0 i⟩ ⟨(i 1).val, h⟩
  else denseRelu agg Wn bn ⟨(i 0).val, idx2_lt0 i⟩ ⟨(i 1).val - 128, by have := idx2_lt1 i; omega⟩

/-- In the left half the layer is the local map. -/
theorem sageRows_left {N : Nat} (x agg : (⟨2, ![N, 128]⟩ : Shape).Idx → EReal)
    (Wl : (⟨2, ![128, 128]⟩ : Shape).Idx → EReal) (bl : (⟨1, ![128]⟩ : Shape).Idx → EReal)
    (Wn : (⟨2, ![128, 128]⟩ : Shape).Idx → EReal) (bn : (⟨1, ![128]⟩ : Shape).Idx → EReal)
    (r : Fin N) (c : Fin 128) (q : Fin 256) (hq : q.val = c.val) :
    sageRows x agg Wl bl Wn bn (ix2 r q) = denseRelu x Wl bl r c := by
  have hlt : ((ix2 r q : (⟨2, ![N, 256]⟩ : Shape).Idx) 1).val < 128 := by show q.val < 128; have := c.isLt; omega
  unfold sageRows
  rw [dif_pos hlt]
  congr 1
  exact Fin.ext hq

/-- In the right half it is the neighbour map, the column shifted back by 128. -/
theorem sageRows_right {N : Nat} (x agg : (⟨2, ![N, 128]⟩ : Shape).Idx → EReal)
    (Wl : (⟨2, ![128, 128]⟩ : Shape).Idx → EReal) (bl : (⟨1, ![128]⟩ : Shape).Idx → EReal)
    (Wn : (⟨2, ![128, 128]⟩ : Shape).Idx → EReal) (bn : (⟨1, ![128]⟩ : Shape).Idx → EReal)
    (r : Fin N) (c : Fin 128) (q : Fin 256) (hq : q.val = 128 + c.val) :
    sageRows x agg Wl bl Wn bn (ix2 r q) = denseRelu agg Wn bn r c := by
  have hge : ¬ ((ix2 r q : (⟨2, ![N, 256]⟩ : Shape).Idx) 1).val < 128 := by show ¬ q.val < 128; omega
  unfold sageRows
  rw [dif_neg hge]
  congr 1
  exact Fin.ext (by show q.val - 128 = c.val; omega)

/-- A row's entries read that row of the feature array only: if row `r` of one feature array is row `r'` of
    another, and the weights and biases agree entry by entry, the affine-rectifier values there agree. -/
theorem denseRelu_congr {N N' : Nat} (a : (⟨2, ![N, 128]⟩ : Shape).Idx → EReal) (a' : (⟨2, ![N', 128]⟩ : Shape).Idx → EReal)
    (W W' : (⟨2, ![128, 128]⟩ : Shape).Idx → EReal) (b b' : (⟨1, ![128]⟩ : Shape).Idx → EReal) (r : Fin N) (r' : Fin N')
    (ha : ∀ k : Fin 128, a (ix2 r k) = a' (ix2 r' k)) (hW : ∀ k j : Fin 128, W (ix2 k j) = W' (ix2 k j))
    (hb : ∀ j : Fin 128, b (ix1 j) = b' (ix1 j)) (c : Fin 128) :
    denseRelu a W b r c = denseRelu a' W' b' r' c := by
  unfold denseRelu
  rw [Finset.sum_congr rfl fun k _ => by rw [ha k, hW k c], hb c]

end Cert.SageLayer

end
-- ==== Proof.KernelBlock.lean ====
/-
  One grid point of the kernel, as mathematics.

  At a grid point the body holds a block of 2000 rows of the node features `x`, the same 2000 rows of the
  aggregate `agg`, and the two weight matrices and bias rows whole. It stores two pieces into a 2000 × 256
  block: into columns 0..127 the rectified local map of the `x` rows, into columns 128..255 the rectified
  neighbour map of the `agg` rows.

  * A matrix product into a zero accumulator, read at (r, c), is `Σ_k a[r, k] · W[k, c]` over the one
    contracted axis (the narrowing of the operands to bf16 is the identity on extended reals).
  * The bias row, cast to one row and broadcast over the 2000 rows, read at (r, c), is `b[c]`.
  * So each stored piece, read at (r, c), is `max (Σ_k a[r, k] · W[k, c] + b[c], 0)`, and the two pieces
    side by side are the layer on 2000 rows (`Cert.SageLayer.sageRows`), whichever piece an index falls in.
-/
import proofs.«114989_j57973468561934_1_alg».proof.Proof.Gen.KernelIdeal.Frame
import proofs.«114989_j57973468561934_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockValue

open Cert.KernelIdeal Cert.KernelIdeal.Gen Idealize.ShloMosaic Idealize.ShloMosaic.ValueIdx Cert.SageLayer

/-! ## The matrix product of a block of rows with a weight matrix -/

/-- The product's left operand index at (output index, contraction index): the output's row … -/
theorem lhs_rows_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the contraction coordinate as its column; -/
theorem lhs_rows_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand's: the contraction coordinate as its row … -/
theorem rhs_rows_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem rhs_rows_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of rows times a weight matrix, both narrowed to bf16, into the zero accumulator: at (r, c) the sum
    over the 128 contracted coordinates of `a[r, k] · W[k, c]`. -/
theorem rows_matmul_apply (a : FVec Ideal S2000x128 .f32) (W : FVec Ideal S128x128 .f32)
    (h₁ h₂ : FTy.bits .bf16 < FTy.bits .f32) (r : Fin 2000) (c : Fin 128) :
    matmul dot_S2000x128_S128x128_S2000x128_1_0_0_1_n_n none (truncf .bf16 a h₁) (truncf .bf16 W h₂)
        (constant S2000x128 .f32 0x00000000#32) (ix2 r c)
      = ∑ k : Fin 128, a (ix2 r k) * W (ix2 k c) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r c) ((contrEquiv1 dot_S2000x128_S128x128_S2000x128_1_0_0_1_n_n 128 rfl rfl).symm k) = ix2 r k := funext fun ax => Fin.ext (by
    match ax with
    | ⟨0, _⟩ => exact lhs_rows_0 _ _
    | ⟨1, _⟩ => exact (lhs_rows_1 _ _).trans hk)
  have er : dot_S2000x128_S128x128_S2000x128_1_0_0_1_n_n.rhsIdx (ix2 r c) ((contrEquiv1 dot_S2000x128_S128x128_S2000x128_1_0_0_1_n_n 128 rfl rfl).symm k) = ix2 k c := funext fun ax => Fin.ext (by
    match ax with
    | ⟨0, _⟩ => exact (rhs_rows_0 _ _).trans hk
    | ⟨1, _⟩ => exact rhs_rows_1 _ _)
  rw [el, er]
  rfl

/-! ## The bias row -/

/-- The bias, cast to one row and broadcast over the block's rows, reads `b[c]` at (r, c). -/
theorem bias_rows_apply (b : FVec Ideal S128 .f32) (h₁ : S128.ShapeCasts S1x128) (h₂ : S1x128.Broadcasts S2000x128)
    (r : Fin 2000) (c : Fin 128) :
    broadcastTo S2000x128 (shapeCast S1x128 b h₁) h₂ (ix2 r c) = b (ix1 c) :=
  (broadcastTo_1b_ab_apply (a := 2000) (b := 128) (shapeCast S1x128 b h₁) h₂ r c).trans
    (shapeCast_a_1a_apply (a := 128) b h₁ (0 : Fin 1) c)

/-! ## The two stored pieces at an index -/

/-- The piece stored into columns 0..127, at (r, c): the rectified local map. -/
theorem local_piece_apply (a : FVec Ideal S2000x128 .f32) (W : FVec Ideal S128x128 .f32) (b : FVec Ideal S128 .f32)
    (r : Fin 2000) (c : Fin 128) :
    k0_pay1 (F := Ideal) a W b (ix2 r c) = denseRelu a W b r c := by
  unfold k0_pay1 denseRelu
  refine congrArg₂ max (congrArg₂ (· + ·) ?_ ?_) rfl
  · exact rows_matmul_apply a W _ _ r c
  · exact bias_rows_apply b _ _ r c

/-- The piece stored into columns 128..255, at (r, c): the rectified neighbour map (the body's cast of the loaded
    rows to their own shape is the identity). -/
theorem neigh_piece_apply (a : FVec Ideal S2000x128 .f32) (W : FVec Ideal S128x128 .f32) (b : FVec Ideal S128 .f32)
    (r : Fin 2000) (c : Fin 128) :
    k0_pay2 (F := Ideal) a W b (ix2 r c) = denseRelu a W b r c := by
  unfold k0_pay2 denseRelu
  refine congrArg₂ max (congrArg₂ (· + ·) ?_ ?_) rfl
  · rw [shapeCast_self]
    exact rows_matmul_apply a W _ _ r c
  · exact bias_rows_apply b _ _ r c

/-! ## The block the body leaves -/

theorem zero_offsets : (![0, 0] : Fin 2 → Nat) = fun _ => 0 := funext fun a => by fin_cases a <;> rfl
theorem zero_offset : (![0] : Fin 1 → Nat) = fun _ => 0 := funext fun a => by fin_cases a; rfl

/-- An index of the left piece's rectangle, placed in the 2000 × 256 block: same row, same column. -/
theorem left_place (r : Fin 2000) (c : Fin 128) :
    r0_3.emb (ix2 r c) = (ix2 r (⟨c.val, by have := c.isLt; omega⟩ : Fin 256) : S2000x256.Idx) :=
  funext fun a => Fin.ext (by
    match a with
    | ⟨0, _⟩ => show 0 + 1 * r.val = r.val; omega
    | ⟨1, _⟩ => show 0 + 1 * c.val = c.val; omega)

/-- An index of the right piece's rectangle, placed in the block: same row, the column 128 further. -/
theorem right_place (r : Fin 2000) (c : Fin 128) :
    r0_4.emb (ix2 r c) = (ix2 r (⟨128 + c.val, by have := c.isLt; omega⟩ : Fin 256) : S2000x256.Idx) :=
  funext fun a => Fin.ext (by
    match a with
    | ⟨0, _⟩ => show 0 + 1 * r.val = r.val; omega
    | ⟨1, _⟩ => show 128 + 1 * c.val = 128 + c.val; omega)

/-- WHAT THE BODY LEAVES in the output block, from the six input blocks: the layer on 2000 rows. Each of the two
    stored pieces is the layer's function at the indices under its rectangle, and the two rectangles cover the
    block. -/
theorem block_eq (x0 x1 : FVec Ideal S2000x128 .f32) (x2 : FVec Ideal S128x128 .f32) (x3 : FVec Ideal S128 .f32)
    (x4 : FVec Ideal S128x128 .f32) (x5 : FVec Ideal S128 .f32) :
    out0_6 (F := Ideal) x0 x1 x2 x3 x4 x5 = sageRows (N := 2000) x0 x1 x2 x3 x4 x5 := by
  funext y
  unfold out0_6
  refine View.canon_apply_of_pieces (Val := Elt Ideal) (S := S2000x256) (e := .f32) (sageRows (N := 2000) x0 x1 x2 x3 x4 x5) _ ?_ y (cover0_6 _ _ y)
  intro p hp x
  simp only [List.mem_cons, List.mem_singleton, List.not_mem_nil, or_false] at hp
  rcases hp with rfl | rfl
  · obtain ⟨r, c, rfl⟩ : ∃ (r : Fin 2000) (c : Fin 128), x = ix2 r c := ⟨x 0, x 1, eq_ix2 x⟩
    show k0_pay2 (F := Ideal) (View.ld x1 r0_0) (View.ld x4 r0_1) (View.ld x5 r0_2) (ix2 r c) = sageRows (N := 2000) x0 x1 x2 x3 x4 x5 (r0_4.emb (ix2 r c))
    rw [View.ld_unit_zero (S := S2000x128) zero_offsets, View.ld_unit_zero (S := S128x128) zero_offsets,
      View.ld_unit_zero (S := S128) zero_offset, right_place, neigh_piece_apply]
    exact (sageRows_right x0 x1 x2 x3 x4 x5 r c _ rfl).symm
  · obtain ⟨r, c, rfl⟩ : ∃ (r : Fin 2000) (c : Fin 128), x = ix2 r c := ⟨x 0, x 1, eq_ix2 x⟩
    show k0_pay1 (F := Ideal) (View.ld x0 r0_0) (View.ld x2 r0_1) (View.ld x3 r0_2) (ix2 r c) = sageRows (N := 2000) x0 x1 x2 x3 x4 x5 (r0_3.emb (ix2 r c))
    rw [View.ld_unit_zero (S := S2000x128) zero_offsets, View.ld_unit_zero (S := S128x128) zero_offsets,
      View.ld_unit_zero (S := S128) zero_offset, left_place, local_piece_apply]
    exact (sageRows_left x0 x1 x2 x3 x4 x5 r c _ rfl).symm

end Cert.KernelIdeal.BlockValue

end
-- ==== Proof.KernelArray.lean ====
/-
  From the kernel's blocks to its whole result array.

  The grid has 50 points. At point t the pipeline hands the body rows 2000·t .. 2000·t + 1999 of the node
  features and of the aggregate, and the weights and biases whole; the body's 2000 × 256 block is written back
  to the same rows of the result. Because a row of the layer reads only that row of the two feature arrays,
  block t of the layer on all 100000 rows IS the layer on the 2000 rows of block t: what each point writes
  back is its block of one whole-array function. The 50 row blocks tile the 100000 rows (row R lies in block
  R / 2000), so after the run the result array is that function everywhere.

  Which array entry a block entry is (the window geometry) is stated for an arbitrary array, apart from what the
  arrays hold. The aggregate is named here by the array the region finds in its buffer; what it is as a function
  of the edge list is a separate matter (it is the same host computation as the reference's).
-/
import proofs.«114989_j57973468561934_1_alg».proof.Proof.Gen.KernelIdeal.Value
import proofs.«114989_j57973468561934_1_alg».proof.Proof.KernelBlock

set_option maxRecDepth 16384

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.ShloMosaic.ValueIdx Idealize.SL.Sem Cert.SageLayer
open Idealize.ShloMosaic.Pipeline (Dat)

variable (m : (ℓ : Loc nD τ sig) → Buf (Elt Ideal) ℓ) (ρ : Dev nD → PrngReg)

/-- The six arrays the region reads, as it finds them (each window's array), at their literal types. -/
abbrev feats (c : Dev nD) : FVec Ideal S100000x128 .f32 := V m c (Pipeline.arrRef spec0 0)
abbrev aggr (c : Dev nD) : FVec Ideal S100000x128 .f32 := V m c (Pipeline.arrRef spec0 1)
abbrev wLocal (c : Dev nD) : FVec Ideal S128x128 .f32 := V m c (Pipeline.arrRef spec0 2)
abbrev bLocal (c : Dev nD) : FVec Ideal S128 .f32 := V m c (Pipeline.arrRef spec0 3)
abbrev wNeigh (c : Dev nD) : FVec Ideal S128x128 .f32 := V m c (Pipeline.arrRef spec0 4)
abbrev bNeigh (c : Dev nD) : FVec Ideal S128 .f32 := V m c (Pipeline.arrRef spec0 5)

/-- The six input blocks at grid point t, at their literal types. -/
abbrev featsBlk (c : Dev nD) (t : Fin cfg0.N) : FVec Ideal S2000x128 .f32 := iblk m c 0 t
abbrev aggrBlk (c : Dev nD) (t : Fin cfg0.N) : FVec Ideal S2000x128 .f32 := iblk m c 1 t
abbrev wLocalBlk (c : Dev nD) (t : Fin cfg0.N) : FVec Ideal S128x128 .f32 := iblk m c 2 t
abbrev bLocalBlk (c : Dev nD) (t : Fin cfg0.N) : FVec Ideal S128 .f32 := iblk m c 3 t
abbrev wNeighBlk (c : Dev nD) (t : Fin cfg0.N) : FVec Ideal S128x128 .f32 := iblk m c 4 t
abbrev bNeighBlk (c : Dev nD) (t : Fin cfg0.N) : FVec Ideal S128 .f32 := iblk m c 5 t

/-- The layer on all 100000 rows, of those arrays. -/
abbrev layerOf (c : Dev nD) : FVec Ideal S100000x256 .f32 :=
  sageRows (N := 100000) (feats m c) (aggr m c) (wLocal m c) (bLocal m c) (wNeigh m c) (bNeigh m c)

/-- The printed index maps over the grid: the two feature windows and the output move together along the rows
    and stay at column block 0, the weights and biases stay at block 0, and the output's row block is at most 49. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 49 :=
  (by decide +kernel : ∀ t : Fin grid0.N, _)

/-- Every row block is some point's. -/
theorem idx_onto : ∀ q : Fin 50, ∃ t : Fin cfg0.N, win0_6.index t = ![q.val, 0] :=
  (by decide +kernel : ∀ q : Fin 50, ∃ t : Fin grid0.N, win0_6.index t = ![q.val, 0])

/-! ## Window geometry: which array entry a block entry is -/

/-- Entry (r, k) of point t's block of the array window 0 stages is the array's entry (R, k), R the block's first
    row plus r. -/
theorem rows_read0 (X : FVec Ideal S100000x128 .f32) (t : Fin cfg0.N) (r : Fin 2000) (R : Fin 100000)
    (hR : R.val = win0_6.index t (0 : Fin 2) * 2000 + r.val) (k : Fin 128) :
    ((cfg0.win 0).blk t).view.read (Elt Ideal) X (ix2 r k) = X (ix2 R k) := by
  obtain ⟨e0, e1, -⟩ := idx_facts t
  show X (((cfg0.win 0).blk t).view.emb (ix2 r k)) = X (ix2 R k)
  refine congrArg X (funext fun a => Fin.ext ?_)
  match a with
  | ⟨0, _⟩ => show win0_0.index t (0 : Fin 2) * 2000 + 1 * r.val = R.val; omega
  | ⟨1, _⟩ => show win0_0.index t (1 : Fin 2) * 128 + 1 * k.val = k.val; omega

/-- The same for window 1. -/
theorem rows_read1 (X : FVec Ideal S100000x128 .f32) (t : Fin cfg0.N) (r : Fin 2000) (R : Fin 100000)
    (hR : R.val = win0_6.index t (0 : Fin 2) * 2000 + r.val) (k : Fin 128) :
    ((cfg0.win 1).blk t).view.read (Elt Ideal) X (ix2 r k) = X (ix2 R k) := by
  obtain ⟨-, -, e2, e3, -⟩ := idx_facts t
  show X (((cfg0.win 1).blk t).view.emb (ix2 r k)) = X (ix2 R k)
  refine congrArg X (funext fun a => Fin.ext ?_)
  match a with
  | ⟨0, _⟩ => show win0_1.index t (0 : Fin 2) * 2000 + 1 * r.val = R.val; omega
  | ⟨1, _⟩ => show win0_1.index t (1 : Fin 2) * 128 + 1 * k.val = k.val; omega

/-- Windows 2 to 5 stage their arrays whole at every point: a block entry is the array's entry at the same index. -/
theorem whole_read2 (X : FVec Ideal S128x128 .f32) (t : Fin cfg0.N) (k j : Fin 128) :
    ((cfg0.win 2).blk t).view.read (Elt Ideal) X (ix2 k j) = X (ix2 k j) := by
  obtain ⟨-, -, -, -, e4, e5, -⟩ := idx_facts t
  show X (((cfg0.win 2).blk t).view.emb (ix2 k j)) = X (ix2 k j)
  refine congrArg X (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega
theorem whole_read3 (X : FVec Ideal S128 .f32) (t : Fin cfg0.N) (j : Fin 128) :
    ((cfg0.win 3).blk t).view.read (Elt Ideal) X (ix1 j) = X (ix1 j) := by
  obtain ⟨-, -, -, -, -, -, e6, -⟩ := idx_facts t
  show X (((cfg0.win 3).blk t).view.emb (ix1 j)) = X (ix1 j)
  refine congrArg X (funext fun a => Fin.ext ?_)
  match a with
  | ⟨0, _⟩ => show win0_3.index t (0 : Fin 1) * 128 + 1 * j.val = j.val; omega
theorem whole_read4 (X : FVec Ideal S128x128 .f32) (t : Fin cfg0.N) (k j : Fin 128) :
    ((cfg0.win 4).blk t).view.read (Elt Ideal) X (ix2 k j) = X (ix2 k j) := by
  obtain ⟨-, -, -, -, -, -, -, e7, e8, -⟩ := idx_facts t
  show X (((cfg0.win 4).blk t).view.emb (ix2 k j)) = X (ix2 k j)
  refine congrArg X (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega
theorem whole_read5 (X : FVec Ideal S128 .f32) (t : Fin cfg0.N) (j : Fin 128) :
    ((cfg0.win 5).blk t).view.read (Elt Ideal) X (ix1 j) = X (ix1 j) := by
  obtain ⟨-, -, -, -, -, -, -, -, -, e9, -⟩ := idx_facts t
  show X (((cfg0.win 5).blk t).view.emb (ix1 j)) = X (ix1 j)
  refine congrArg X (funext fun a => Fin.ext ?_)
  match a with
  | ⟨0, _⟩ => show win0_5.index t (0 : Fin 1) * 128 + 1 * j.val = j.val; omega

/-- Where an index of point t's output block lies in the result array: the block's first row further down. -/
theorem out_place (t : Fin cfg0.N) (r : Fin 2000) (q : Fin 256) (R : Fin 100000)
    (hR : R.val = win0_6.index t (0 : Fin 2) * 2000 + r.val) :
    ((cfg0.win 6).blk t).view.emb (ix2 r q) = (ix2 R q : S100000x256.Idx) := by
  obtain ⟨-, -, -, -, -, -, -, -, -, -, e10, -⟩ := idx_facts t
  refine funext fun a => Fin.ext ?_
  match a with
  | ⟨0, _⟩ => show win0_6.index t (0 : Fin 2) * 2000 + 1 * r.val = R.val; omega
  | ⟨1, _⟩ => show win0_6.index t (1 : Fin 2) * 256 + 1 * q.val = q.val; omega

/-! ## What each input block holds: the geometry at the region's arrays -/

theorem feats_block (c : Dev nD) (t : Fin cfg0.N) (r : Fin 2000) (R : Fin 100000)
    (hR : R.val = win0_6.index t (0 : Fin 2) * 2000 + r.val) (k : Fin 128) :
    featsBlk m c t (ix2 r k) = feats m c (ix2 R k) :=
  rows_read0 (feats m c) t r R hR k
theorem aggr_block (c : Dev nD) (t : Fin cfg0.N) (r : Fin 2000) (R : Fin 100000)
    (hR : R.val = win0_6.index t (0 : Fin 2) * 2000 + r.val) (k : Fin 128) :
    aggrBlk m c t (ix2 r k) = aggr m c (ix2 R k) :=
  rows_read1 (aggr m c) t r R hR k
theorem wLocal_block (c : Dev nD) (t : Fin cfg0.N) (k j : Fin 128) : wLocalBlk m c t (ix2 k j) = wLocal m c (ix2 k j) :=
  whole_read2 (wLocal m c) t k j
theorem bLocal_block (c : Dev nD) (t : Fin cfg0.N) (j : Fin 128) : bLocalBlk m c t (ix1 j) = bLocal m c (ix1 j) :=
  whole_read3 (bLocal m c) t j
theorem wNeigh_block (c : Dev nD) (t : Fin cfg0.N) (k j : Fin 128) : wNeighBlk m c t (ix2 k j) = wNeigh m c (ix2 k j) :=
  whole_read4 (wNeigh m c) t k j
theorem bNeigh_block (c : Dev nD) (t : Fin cfg0.N) (j : Fin 128) : bNeighBlk m c t (ix1 j) = bNeigh m c (ix1 j) :=
  whole_read5 (bNeigh m c) t j

/-! ## What each point writes back -/

/-- The layer on the 2000 rows of point t's input blocks, at (r, q), is the layer on all rows at (R, q). -/
theorem block_of_layer (c : Dev nD) (t : Fin cfg0.N) (r : Fin 2000) (q : Fin 256) (R : Fin 100000)
    (hR : R.val = win0_6.index t (0 : Fin 2) * 2000 + r.val) :
    sageRows (N := 2000) (featsBlk m c t) (aggrBlk m c t) (wLocalBlk m c t) (bLocalBlk m c t) (wNeighBlk m c t) (bNeighBlk m c t) (ix2 r q)
      = layerOf m c (ix2 R q) := by
  show sageRows (N := 2000) (featsBlk m c t) (aggrBlk m c t) (wLocalBlk m c t) (bLocalBlk m c t) (wNeighBlk m c t) (bNeighBlk m c t) (ix2 r q)
    = sageRows (N := 100000) (feats m c) (aggr m c) (wLocal m c) (bLocal m c) (wNeigh m c) (bNeigh m c) (ix2 R q)
  by_cases hq : q.val < 128
  · rw [sageRows_left (N := 2000) (featsBlk m c t) (aggrBlk m c t) (wLocalBlk m c t) (bLocalBlk m c t) (wNeighBlk m c t) (bNeighBlk m c t) r ⟨q.val, hq⟩ q rfl,
      sageRows_left (N := 100000) (feats m c) (aggr m c) (wLocal m c) (bLocal m c) (wNeigh m c) (bNeigh m c) R ⟨q.val, hq⟩ q rfl]
    exact denseRelu_congr (N := 2000) (N' := 100000) (featsBlk m c t) (feats m c) (wLocalBlk m c t) (wLocal m c) (bLocalBlk m c t) (bLocal m c) r R
      (feats_block m c t r R hR) (wLocal_block m c t) (bLocal_block m c t) ⟨q.val, hq⟩
  · have hc : q.val - 128 < 128 := by have := q.isLt; omega
    have hq' : q.val = 128 + (⟨q.val - 128, hc⟩ : Fin 128).val := by show q.val = 128 + (q.val - 128); omega
    rw [sageRows_right (N := 2000) (featsBlk m c t) (aggrBlk m c t) (wLocalBlk m c t) (bLocalBlk m c t) (wNeighBlk m c t) (bNeighBlk m c t) r ⟨q.val - 128, hc⟩ q hq',
      sageRows_right (N := 100000) (feats m c) (aggr m c) (wLocal m c) (bLocal m c) (wNeigh m c) (bNeigh m c) R ⟨q.val - 128, hc⟩ q hq']
    exact denseRelu_congr (N := 2000) (N' := 100000) (aggrBlk m c t) (aggr m c) (wNeighBlk m c t) (wNeigh m c) (bNeighBlk m c t) (bNeigh m c) r R
      (aggr_block m c t r R hR) (wNeigh_block m c t) (bNeigh_block m c t) ⟨q.val - 128, hc⟩

/-- What the body leaves at point t, over the named blocks. -/
theorem after_eq (c : Dev nD) (t : Fin cfg0.N) :
    out0_6 (F := Ideal) (iblk m c 0 t) (iblk m c 1 t) (iblk m c 2 t) (iblk m c 3 t) (iblk m c 4 t) (iblk m c 5 t)
      = sageRows (N := 2000) (featsBlk m c t) (aggrBlk m c t) (wLocalBlk m c t) (bLocalBlk m c t) (wNeighBlk m c t) (bNeighBlk m c t) :=
  block_eq (featsBlk m c t) (aggrBlk m c t) (wLocalBlk m c t) (bLocalBlk m c t) (wNeighBlk m c t) (bNeighBlk m c t)

/-- WHAT POINT t WRITES BACK is block t of the layer on all rows. -/
theorem flushed_eq (c : Dev nD) (t : Fin cfg0.N) :
    (dats m 0 c).flushed 6 t = ((cfg0.win 6).blk t).view.read (Elt Ideal) (layerOf m c) := by
  rw [flushed6, after_eq]
  obtain ⟨-, -, -, -, -, -, -, -, -, -, -, e11⟩ := idx_facts t
  funext j
  obtain ⟨r, q, rfl⟩ : ∃ (r : Fin 2000) (q : Fin 256), j = ix2 r q := ⟨j 0, j 1, eq_ix2 j⟩
  have hlt : win0_6.index t (0 : Fin 2) * 2000 + r.val < 100000 := by have := r.isLt; omega
  show sageRows (N := 2000) (featsBlk m c t) (aggrBlk m c t) (wLocalBlk m c t) (bLocalBlk m c t) (wNeighBlk m c t) (bNeighBlk m c t) (ix2 r q)
    = layerOf m c (((cfg0.win 6).blk t).view.emb (ix2 r q))
  rw [out_place t r q ⟨_, hlt⟩ rfl]
  exact block_of_layer m c t r q ⟨_, hlt⟩ rfl

/-! ## The cover -/

/-- An index of the result array is in point t's block iff each coordinate is in the block's range on its axis. -/
theorem mem_blk (t : Fin cfg0.N) (i : S100000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v13).slice (win0_6.rect t)).set ↔ _
  rw [View.set_slice_whole, Rect.mem_set_unit]
  exact Iff.rfl

/-- Every index of the result array lies in some point's block: row R in block R / 2000. -/
theorem cover (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-! ## The array after the run, and the run -/

/-- THE RESULT ARRAY after the run is the layer on all rows of the arrays the region found. -/
theorem final (c : Dev nD) : (dats m 0 c).arrAt 6 cfg0.N = layerOf m c :=
  (dats m 0 c).arrAt_eq_of_cover 6 (layerOf m c) (fun t _ => flushed_eq m c t) cover

/-- Of the arrays the region found, all but the aggregate are the launch arguments (no host operation writes
    them); the aggregate is the buffer the host operations left. -/
theorem layerOf_args (c : Dev nD) :
    layerOf m c = sageRows (N := 100000) (m ((c : Thread nD τ).loc main_arg0)) (V m c main_v12) (m ((c : Thread nD τ).loc main_arg4))
      (m ((c : Thread nD τ).loc main_arg5)) (m ((c : Thread nD τ).loc main_arg6)) (m ((c : Thread nD τ).loc main_arg7)) := by
  have h0 : feats m c = m ((c : Thread nD τ).loc main_arg0) := V_main_arg0 m c
  have h1 : aggr m c = V m c main_v12 := rfl
  have h2 : wLocal m c = m ((c : Thread nD τ).loc main_arg4) := V_main_arg4 m c
  have h3 : bLocal m c = m ((c : Thread nD τ).loc main_arg5) := V_main_arg5 m c
  have h4 : wNeigh m c = m ((c : Thread nD τ).loc main_arg6) := V_main_arg6 m c
  have h5 : bNeigh m c = m ((c : Thread nD τ).loc main_arg7) := V_main_arg7 m c
  show sageRows (N := 100000) (feats m c) (aggr m c) (wLocal m c) (bLocal m c) (wNeigh m c) (bNeigh m c) = _
  rw [h0, h1, h2, h3, h4, h5]

/-- The kernel's run: every weakly fair execution terminates with the result at the layer of the launch
    arguments and of the aggregate the host operations left, the arguments unchanged. -/
theorem run : θ_run defs (onTc (τ := τ) (main (F := Ideal))) ⟨m, fun _ => 0, ρ⟩ fun r => ∀ c : Dev nD,
      r.2.mem ((c : Thread nD τ).loc main_v13)
        = sageRows (N := 100000) (m ((c : Thread nD τ).loc main_arg0)) (V m c main_v12) (m ((c : Thread nD τ).loc main_arg4))
            (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (layerOf_args m c)), (h c).2⟩)
    (run_blocks m ρ)

end Cert.KernelIdeal.ArrayValue

end
-- ==== Proof.ReferenceLayer.lean ====
/-
  The reference, as mathematics.

  The reference computes the local affine map of every node's features and the neighbour affine map of every
  node's aggregate as two 100000 × 128 arrays, joins them along the columns into 100000 × 256, and takes the
  maximum with zero. Read at (r, q):

  * for q < 128 the joined array is the first piece at (r, q), which is `Σ_k x[r, k] · W_local[k, q] + b_local[q]`;
  * for q ≥ 128 it is the second piece at (r, q − 128), the same form over the aggregate and the neighbour
    weights;
  * the maximum with the broadcast zero is pointwise.

  So the result is the layer on 100000 rows (`Cert.SageLayer.sageRows`) of the arguments and of the aggregate
  — the aggregate being the reference's own stage for it (the scatter-add of the scaled gathered rows), which is
  carried here as one array and never read inside.
-/
import proofs.«114989_j57973468561934_1_alg».proof.Proof.Gen.ReferenceIdeal.Read
import proofs.«114989_j57973468561934_1_alg».proof.Proof.LayerSpec
import Idealize.ShloMosaic.Lib.Pipeline.Value
import Idealize.ShloMosaic.Lib.ValueIdx
import Idealize.ShloMosaic.PureOps.Ideal.Laws

noncomputable section

namespace Cert.ReferenceIdeal.LayerValue

open Cert.ReferenceIdeal Cert.ReferenceIdeal.Gen Cert.ReferenceIdeal.Read Idealize.ShloMosaic Idealize.ShloMosaic.ValueIdx Cert.SageLayer

/-- The local affine map at (r, c): the row of `x` against the column of the weights, plus the bias entry. -/
theorem local_affine_apply (x0 : (⟨S100000x128, .f32⟩ : BufTy).Contents (Elt Ideal)) (x4 : (⟨S128x128, .f32⟩ : BufTy).Contents (Elt Ideal))
    (x5 : (⟨S128, .f32⟩ : BufTy).Contents (Elt Ideal)) (r : Fin 100000) (c : Fin 128) :
    val_main_v3 (F := Ideal) x0 x4 x5 (ix2 r c) = (∑ k : Fin 128, x0 (ix2 r k) * x4 (ix2 k c)) + x5 (ix1 c) := by
  have e1 : ∀ k : Fin 128, lidx_main_v0 (ix2 r c) k = ix2 r k := fun k => funext fun a => Fin.ext (by
    match a with | ⟨0, _⟩ => rfl | ⟨1, _⟩ => rfl)
  have e2 : ∀ k : Fin 128, ridx_main_v0 (ix2 r c) k = ix2 k c := fun k => funext fun a => Fin.ext (by
    match a with | ⟨0, _⟩ => rfl | ⟨1, _⟩ => rfl)
  have e3 : idx_main_v1 (idx_main_v2 (ix2 r c)) = ix1 c := funext fun a => Fin.ext (by
    match a with | ⟨0, _⟩ => rfl)
  rw [val_main_v3_apply, val_main_v0_apply, val_main_v2_apply, val_main_v1_apply, e3]
  simp only [e1, e2]
  rfl

/-- The neighbour affine map at (r, c), over the aggregate stage. -/
theorem neigh_affine_apply (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x6 : (⟨S128x128, .f32⟩ : BufTy).Contents (Elt Ideal))
    (x7 : (⟨S128, .f32⟩ : BufTy).Contents (Elt Ideal)) (r : Fin 100000) (c : Fin 128) :
    val_main_v20 (F := Ideal) x0 x1 x2 x3 x6 x7 (ix2 r c)
      = (∑ k : Fin 128, val_main_v16 (F := Ideal) x0 x1 x2 x3 (ix2 r k) * x6 (ix2 k c)) + x7 (ix1 c) := by
  have e1 : ∀ k : Fin 128, lidx_main_v17 (ix2 r c) k = ix2 r k := fun k => funext fun a => Fin.ext (by
    match a with | ⟨0, _⟩ => rfl | ⟨1, _⟩ => rfl)
  have e2 : ∀ k : Fin 128, ridx_main_v17 (ix2 r c) k = ix2 k c := fun k => funext fun a => Fin.ext (by
    match a with | ⟨0, _⟩ => rfl | ⟨1, _⟩ => rfl)
  have e3 : idx_main_v18 (idx_main_v19 (ix2 r c)) = ix1 c := funext fun a => Fin.ext (by
    match a with | ⟨0, _⟩ => rfl)
  rw [val_main_v20_apply, val_main_v17_apply, val_main_v19_apply, val_main_v18_apply, e3]
  generalize val_main_v16 (F := Ideal) x0 x1 x2 x3 = agg
  simp only [e1, e2]
  rfl

/-- The two maps joined along the columns, at a column below 128: the local map there. -/
theorem joined_left (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (r : Fin 100000) (c : Fin 128) (q : Fin 256) (hq : q.val = c.val) :
    val_main_v21 (F := Ideal) x0 x1 x2 x3 x4 x5 x6 x7 (ix2 r q) = val_main_v3 (F := Ideal) x0 x4 x5 (ix2 r c) := by
  unfold val_main_v21
  generalize val_main_v3 (F := Ideal) x0 x4 x5 = p
  generalize val_main_v20 (F := Ideal) x0 x1 x2 x3 x6 x7 = p'
  exact concatenate_pair_apply_left (1 : Fin 2) p p' _ (ix2 r q) rfl (ix2 r c) (fun b => by
    match b with
    | ⟨0, _⟩ => rfl
    | ⟨1, _⟩ => exact hq.symm)

/-- At a column from 128 on: the neighbour map, 128 columns back. -/
theorem joined_right (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (r : Fin 100000) (c : Fin 128) (q : Fin 256) (hq : q.val = 128 + c.val) :
    val_main_v21 (F := Ideal) x0 x1 x2 x3 x4 x5 x6 x7 (ix2 r q) = val_main_v20 (F := Ideal) x0 x1 x2 x3 x6 x7 (ix2 r c) := by
  unfold val_main_v21
  generalize val_main_v3 (F := Ideal) x0 x4 x5 = p
  generalize val_main_v20 (F := Ideal) x0 x1 x2 x3 x6 x7 = p'
  exact concatenate_pair_apply_right (1 : Fin 2) p p' _ (ix2 r q) rfl rfl (ix2 r c) (fun b hb => by
    match b with
    | ⟨0, _⟩ => rfl
    | ⟨1, _⟩ => exact absurd rfl hb) (by show c.val + 128 = q.val; omega)

/-- THE REFERENCE'S RESULT is the layer on 100000 rows of its arguments and its aggregate stage. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v22 (F := Ideal) x0 x1 x2 x3 x4 x5 x6 x7
      = sageRows (N := 100000) x0 (val_main_v16 (F := Ideal) x0 x1 x2 x3) x4 x5 x6 x7 := by
  funext i
  obtain ⟨r, q, rfl⟩ : ∃ (r : Fin 100000) (q : Fin 256), i = ix2 r q := ⟨i 0, i 1, eq_ix2 i⟩
  rw [val_main_v22_apply, val_main_call0_v0_apply, val_main_call0_cst_apply]
  by_cases hq : q.val < 128
  · rw [joined_left x0 x1 x2 x3 x4 x5 x6 x7 r ⟨q.val, hq⟩ q rfl, local_affine_apply,
      sageRows_left x0 (val_main_v16 (F := Ideal) x0 x1 x2 x3) x4 x5 x6 x7 r ⟨q.val, hq⟩ q rfl]
    rfl
  · have hc : q.val - 128 < 128 := by have := q.isLt; omega
    rw [joined_right x0 x1 x2 x3 x4 x5 x6 x7 r ⟨q.val - 128, hc⟩ q (by show q.val = 128 + (q.val - 128); omega),
      neigh_affine_apply,
      sageRows_right x0 (val_main_v16 (F := Ideal) x0 x1 x2 x3) x4 x5 x6 x7 r ⟨q.val - 128, hc⟩ q (by show q.val = 128 + (q.val - 128); omega)]
    rfl

end Cert.ReferenceIdeal.LayerValue

end
-- ==== Proof.Aggregate.lean ====
/-
  The aggregate is one array in both programs.

  Before its one kernel launch the kernel's program builds the aggregate on the host: it wraps negative
  source indices once (index + 100000 where the index is below zero), gathers those rows of the node
  features, scales each gathered row by its edge's value, and scatter-adds the scaled rows into a zero array
  at the destination indices. The reference builds its aggregate by the same sixteen operations with the same
  dimension numbers and the same literals, in the same order. So, as functions of the four arguments they read
  (features, destination indices, source indices, edge values), the two aggregates are the same term: nothing
  about what a gather or a scatter-add computes is used, only that both programs apply the same ones.
-/
import proofs.«114989_j57973468561934_1_alg».proof.Proof.Gen.KernelIdeal.Frame
import proofs.«114989_j57973468561934_1_alg».proof.Proof.Gen.ReferenceIdeal.Read
import Idealize.ShloMosaic.Lib.StableHlo.Run

noncomputable section

namespace Cert.KernelIdeal.AggregateValue

open Cert.KernelIdeal Cert.KernelIdeal.Gen Idealize.ShloMosaic Idealize.ShloMosaic.TcCoe Idealize.SL.Sem Idealize.ShloMosaic.StableHlo

/-- The array the kernel's region finds in the aggregate's buffer is the reference's aggregate stage of the
    launch contents of the features, the destination indices, the source indices and the edge values. -/
theorem aggregate_eq (m : (ℓ : Loc nD τ sig) → Buf (Elt Ideal) ℓ) (c : Dev nD) :
    (V m c main_v12 : S100000x128.Idx → EReal)
      = Cert.ReferenceIdeal.Read.val_main_v16 (F := Ideal) (m ((c : Thread nD τ).loc main_arg0))
          (m ((c : Thread nD τ).loc main_arg1)) (m ((c : Thread nD τ).loc main_arg2)) (m ((c : Thread nD τ).loc main_arg3)) := by
  dsimp only [V, hostOps0]
  after_results
  rfl

end Cert.KernelIdeal.AggregateValue

end
-- ==== Proof.lean ====
/-
  A graph-convolution layer on 100000 nodes with 128 features: every node's output row is its own features
  through an affine map, and the value-weighted sum of its in-neighbours' features (the aggregate) through a
  second affine map, the two results side by side in 256 columns, each entry rectified (maximum with zero).

  The kernel's program builds the aggregate with host operations and runs one pipelined kernel over 50 blocks of
  2000 rows, which computes both affine maps as matrix products into zero accumulators, adds the biases, takes
  the maxima and stores the two halves of the block. The reference does both products on the whole arrays,
  joins them along the columns and takes the maximum once.

  Over the extended reals the two are one function, for every input (no finiteness is used):
  * narrowing an operand to bf16 is the identity, and a matrix product into a zero accumulator and the host's
    product are both the plain sum `Σ_k a[r, k] · W[k, c]` (Proof/KernelBlock.lean, Proof/ReferenceLayer.lean);
  * the maximum with zero of two arrays joined along the columns is the two maxima side by side
    (Proof/LayerSpec.lean's `sageRows`, which both sides are shown equal to);
  * a row of the result reads only that row of the features and of the aggregate, so the 50 row blocks the
    kernel writes back are the blocks of the one whole-array function, and they tile the array
    (Proof/KernelArray.lean);
  * the aggregate is made by the same host operations in both programs, so it is the same array, whatever a
    gather or a scatter-add computes (Proof/Aggregate.lean).

  The three frames: the two kernel programs' are their generated frame certificates; the reference has no
  kernel, and its frame is its run with the result dropped. The idealization rewrote nothing, so there is
  nothing to preserve.
-/
import proofs.«114989_j57973468561934_1_alg».proof.Defs
import proofs.«114989_j57973468561934_1_alg».proof.Proof.Gen.Kernel
import proofs.«114989_j57973468561934_1_alg».proof.Proof.Gen.Kernel.Skeleton
import proofs.«114989_j57973468561934_1_alg».proof.Proof.Gen.Kernel.Launch
import proofs.«114989_j57973468561934_1_alg».proof.Proof.Gen.Kernel.Points
import proofs.«114989_j57973468561934_1_alg».proof.Proof.Gen.Kernel.Frame
import proofs.«114989_j57973468561934_1_alg».proof.Proof.Gen.KernelIdeal
import proofs.«114989_j57973468561934_1_alg».proof.Proof.Gen.KernelIdeal.Skeleton
import proofs.«114989_j57973468561934_1_alg».proof.Proof.Gen.KernelIdeal.Launch
import proofs.«114989_j57973468561934_1_alg».proof.Proof.Gen.KernelIdeal.Points
import proofs.«114989_j57973468561934_1_alg».proof.Proof.Gen.KernelIdeal.Frame
import proofs.«114989_j57973468561934_1_alg».proof.Proof.Gen.ReferenceIdeal
import proofs.«114989_j57973468561934_1_alg».proof.Proof.Gen.Pre_finite_inputs
import proofs.«114989_j57973468561934_1_alg».proof.Proof.Gen.KernelIdeal.Value
import proofs.«114989_j57973468561934_1_alg».proof.Proof.Gen.ReferenceIdeal.Run
import proofs.«114989_j57973468561934_1_alg».proof.Proof.Gen.ReferenceIdeal.Read
import proofs.«114989_j57973468561934_1_alg».proof.Proof.LayerSpec
import proofs.«114989_j57973468561934_1_alg».proof.Proof.KernelBlock
import proofs.«114989_j57973468561934_1_alg».proof.Proof.KernelArray
import proofs.«114989_j57973468561934_1_alg».proof.Proof.ReferenceLayer
import proofs.«114989_j57973468561934_1_alg».proof.Proof.Aggregate
import Idealize.ShloMosaic.Adequacy
import Idealize.ShloMosaic.Init

noncomputable section

namespace Cert.Proof

open Idealize.ShloMosaic Idealize.ShloMosaic.TcCoe Idealize.SL.Sem Cert.SageLayer

namespace LayerClaims

theorem frame_kernel : Cert.frame_Kernel := fun m ρ _ => Cert.Kernel.Gen.frame m ρ

theorem frame_kernelIdeal : Cert.frame_KernelIdeal := fun m ρ _ => Cert.KernelIdeal.Gen.frame m ρ

/-- The reference runs, and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the layer of those arguments: the
    kernel's result array is the layer on all rows over the aggregate its host operations left, the reference's
    is the layer over its own aggregate stage, and the two aggregates are one array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v22_eq, Cert.ReferenceIdeal.LayerValue.result_eq, h0, h1, h2, h3, h4, h5, h6, h7,
    ← Cert.KernelIdeal.AggregateValue.aggregate_eq m c]

end LayerClaims

theorem claim : Cert.Claim := ⟨Cert.Kernel.Gen.facts, Cert.KernelIdeal.Gen.facts, Cert.ReferenceIdeal.Gen.facts, Cert.Pre_finite_inputs.Gen.facts,
  LayerClaims.frame_kernel, LayerClaims.frame_kernelIdeal, LayerClaims.frame_referenceIdeal, trivial, LayerClaims.algebraic⟩

end Cert.Proof

end
